-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x256 : Shape := ⟨4, ![16, 128, 128, 256]⟩
abbrev S512x256 : Shape := ⟨2, ![512, 256]⟩
abbrev S256 : Shape := ⟨1, ![256]⟩
abbrev S_ : Shape := ⟨0, ![]⟩

class Facts : Prop where
  bcast_S_S16x128x128x256 : S_.BroadcastsInDim S16x128x128x256 (![] : Fin 0 → Fin S16x128x128x256.rank)
  reducesTo_S16x128x128x256_S_d0_1_2_3 : S16x128x128x256.ReducesTo [0, 1, 2, 3] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x128x128x256 .f32) (main_arg1 : FVec F S16x128x128x256 .f32) (main_arg2 : FVec F S512x256 .f32) (main_arg3 : FVec F S256 .f32) : IVec S_ 1 :=
  let main_v0 : FVec F S16x128x128x256 .f32 := Host.absf main_arg0
  let main_cst : FVec F S_ .f32 := constant S_ .f32 0x7F800000#32
  let main_v1 : FVec F S16x128x128x256 .f32 := broadcastInDim S16x128x128x256 ![] bcast_S_S16x128x128x256 main_cst
  let main_v2 : IVec S16x128x128x256 1 := cmpf .olt main_v0 main_v1
  let main_c : IVec S_ 1 := constantI S_ 1 1#1
  let main_v3 : IVec S_ 1 := (fun x v => Host.reduce IntOp.andi x v reducesTo_S16x128x128x256_S_d0_1_2_3 h_S_) main_v2 main_c
  let main_v4 : FVec F S16x128x128x256 .f32 := Host.absf main_arg1
  let main_cst_0 : FVec F S_ .f32 := constant S_ .f32 0x7F800000#32
  let main_v5 : FVec F S16x128x128x256 .f32 := broadcastInDim S16x128x128x256 ![] bcast_S_S16x128x128x256 main_cst_0
  let main_v6 : IVec S16x128x128x256 1 := cmpf .olt main_v4 main_v5
  let main_c_1 : IVec S_ 1 := constantI S_ 1 1#1
  let main_v7 : IVec S_ 1 := (fun x v => Host.reduce IntOp.andi x v reducesTo_S16x128x128x256_S_d0_1_2_3 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x128x128x256 : Shape := ⟨4, ![16, 128, 128, 256]⟩
abbrev S512x256 : Shape := ⟨2, ![512, 256]⟩
abbrev S256 : Shape := ⟨1, ![256]⟩
abbrev S256x256 : Shape := ⟨2, ![256, 256]⟩
abbrev S1x256 : Shape := ⟨2, ![1, 256]⟩
abbrev S2048x256 : Shape := ⟨2, ![2048, 256]⟩
abbrev S1x32x128x256 : Shape := ⟨4, ![1, 32, 128, 256]⟩
abbrev S32x256 : Shape := ⟨2, ![32, 256]⟩
abbrev S32x128x256 : Shape := ⟨3, ![32, 128, 256]⟩
abbrev S32x128 : Shape := ⟨2, ![32, 128]⟩
abbrev S32 : Shape := ⟨1, ![32]⟩
abbrev S32x1 : Shape := ⟨2, ![32, 1]⟩

abbrev nBuf : Space → Nat
  | .hbm => 8
  | .vmem => 9
  | .smem => 0
  | _ => 0

abbrev bufTy : (tb : Table) → Fin (tcTables nBuf tb) → BufTy
  | .hbm, ⟨0, _⟩ => ⟨S16x128x128x256, .f32⟩
  | .hbm, ⟨1, _⟩ => ⟨S16x128x128x256, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S2048x256, .f32⟩
  | .local _ .vmem, ⟨0, _⟩ => ⟨S1x32x128x256, .f32⟩
  | .local _ .vmem, ⟨1, _⟩ => ⟨S1x32x128x256, .f32⟩
  | .local _ .vmem, ⟨2, _⟩ => ⟨S1x32x128x256, .f32⟩
  | .local _ .vmem, ⟨3, _⟩ => ⟨S1x32x128x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S32x256, .f32⟩
  | .local _ .vmem, ⟨8, _⟩ => ⟨S32x256, .f32⟩
  | _, _ => ⟨S16x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S512x256_S256x256_0_0 : S512x256.Slices ![0, 0] S256x256
  slices_S512x256_S256x256_256_0 : S512x256.Slices ![256, 0] S256x256
  shapeCasts_S256_S1x256 : S256.ShapeCasts S1x256
  inb_S1x32x128x256_S1x32x128x256_0_0_0_0 : ∀ a, (![0, 0, 0, 0] : Fin 4 → Nat) a + S1x32x128x256.size a ≤ S1x32x128x256.size a
  h_S1x32x128x256 : 0 < S1x32x128x256.numel
  shapeCasts_S1x32x128x256_S32x128x256 : S1x32x128x256.ShapeCasts S32x128x256
  reduces_S32x128x256_S32x128 : S32x128x256.Reduces [2] S32x128
  natLt_1_32 : 1 < 32
  reduces_S32x128_S32 : S32x128.Reduces [1] S32
  shapeCasts_S32_S32x1 : S32.ShapeCasts S32x1
  reduces_S32x128x256_S32x256 : S32x128x256.Reduces [1] S32x256
  broadcasts_S32x1_S32x256 : S32x1.Broadcasts S32x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S32x256_S32x256_0_0 : ∀ a, (![0, 0] : Fin 2 → Nat) a + S32x256.size a ≤ S32x256.size a
  h_S32x256 : 0 < S32x256.numel
  dot_S32x256_S256x256_S32x256_1_0_0_1_n_n_wf : DotDims.WF S32x256 S256x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x256.size a ≤ S16x128x128x256.size a
  hwx0_0 : ∀ i : grid0.Coords, EltTy.bits .f32 = 32 ∨ (Rect.block (s := S16x128x128x256) S1x32x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x256.size a ≤ S16x128x128x256.size a
  hwx0_1 : ∀ i : grid0.Coords, EltTy.bits .f32 = 32 ∨ (Rect.block (s := S16x128x128x256) S1x32x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S2048x256.size a
  hwx0_5 : ∀ i : grid0.Coords, EltTy.bits .f32 = 32 ∨ (Rect.block (s := S2048x256) S32x256.size (cc0_transform_5 i) (hinb0_5 i)).WholeWords (EltTy.packing .f32)

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf

abbrev win0_0 : Pipeline.Window sig grid0 :=
  Pipeline.Window.ofSpec (Memref.whole main_arg0) S1x32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x128x128x256 : Shape := ⟨4, ![16, 128, 128, 256]⟩
abbrev S512x256 : Shape := ⟨2, ![512, 256]⟩
abbrev S256 : Shape := ⟨1, ![256]⟩
abbrev S_ : Shape := ⟨0, ![]⟩
abbrev S16x128x128 : Shape := ⟨3, ![16, 128, 128]⟩
abbrev S16x128 : Shape := ⟨2, ![16, 128]⟩
abbrev S16x128x256 : Shape := ⟨3, ![16, 128, 256]⟩
abbrev S16x128x1 : Shape := ⟨3, ![16, 128, 1]⟩
abbrev S16x128x512 : Shape := ⟨3, ![16, 128, 512]⟩
abbrev S2048x512 : Shape := ⟨2, ![2048, 512]⟩
abbrev S2048x256 : Shape := ⟨2, ![2048, 256]⟩
abbrev S1x256 : Shape := ⟨2, ![1, 256]⟩

abbrev nBuf : Space → Nat
  | .hbm => 37
  | .vmem => 0
  | .smem => 0
  | _ => 0

abbrev bufTy : (tb : Table) → Fin (tcTables nBuf tb) → BufTy
  | .hbm, ⟨0, _⟩ => ⟨S16x128x128x256, .f32⟩
  | .hbm, ⟨1, _⟩ => ⟨S16x128x128x256, .f32⟩
  | .hbm, ⟨2, _⟩ => ⟨S512x256, .f32⟩
  | .hbm, ⟨3, _⟩ => ⟨S256, .f32⟩
  | .hbm, ⟨4, _⟩ => ⟨S_, .f32⟩
  | .hbm, ⟨5, _⟩ => ⟨S16x128x128x256, .f32⟩
  | .hbm, ⟨6, _⟩ => ⟨S16x128x128x256, .i1⟩
  | .hbm, ⟨7, _⟩ => ⟨S_, .i1⟩
  | .hbm, ⟨8, _⟩ => ⟨S16x128x128, .i1⟩
  | .hbm, ⟨9, _⟩ => ⟨S16x128x128, .i32⟩
  | .hbm, ⟨10, _⟩ => ⟨S_, .i32⟩
  | .hbm, ⟨11, _⟩ => ⟨S16x128, .i32⟩
  | .hbm, ⟨12, _⟩ => ⟨S16x128, .f32⟩
  | .hbm, ⟨13, _⟩ => ⟨S_, .f32⟩
  | .hbm, ⟨14, _⟩ => ⟨S16x128x256, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128x1, .f32⟩
  | .hbm, ⟨19, _⟩ => ⟨S16x128x256, .f32⟩
  | .hbm, ⟨20, _⟩ => ⟨S16x128x256, .f32⟩
  | .hbm, ⟨21, _⟩ => ⟨S_, .f32⟩
  | .hbm, ⟨22, _⟩ => ⟨S16x128x256, .f32⟩
  | .hbm, ⟨23, _⟩ => ⟨S16x128x512, .f32⟩
  | .hbm, ⟨24, _⟩ => ⟨S2048x512, .f32⟩
  | .hbm, ⟨25, _⟩ => ⟨S2048x256, .f32⟩
  | .hbm, ⟨26, _⟩ => ⟨S1x256, .f32⟩
  | .hbm, ⟨27, _⟩ => ⟨S2048x256, .f32⟩
  | .hbm, ⟨28, _⟩ => ⟨S2048x256, .f32⟩
  | .hbm, ⟨29, _⟩ => ⟨S_, .f32⟩
  | .hbm, ⟨30, _⟩ => ⟨S_, .f32⟩
  | .hbm, ⟨31, _⟩ => ⟨S2048x256, .f32⟩
  | .hbm, ⟨32, _⟩ => ⟨S2048x256, .i1⟩
  | .hbm, ⟨33, _⟩ => ⟨S_, .f32⟩
  | .hbm, ⟨34, _⟩ => ⟨S2048x256, .f32⟩
  | .hbm, ⟨35, _⟩ => ⟨S2048x256, .f32⟩
  | .hbm, ⟨36, _⟩ => ⟨S2048x256, .f32⟩
  | _, _ => ⟨S16x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v19 : Ref sig .tc := ⟨.hbm, 36, rfl⟩

abbrev nD : Nat := 1
abbrev τ : Topo := Topo.v7x

variable {F : FTy → Type} [FloatOps F]

class Facts₀ : Prop where
  bcast_S_S16x128x128x256 : S_.BroadcastsInDim S16x128x128x256 (![] : Fin 0 → Fin S16x128x128x256.rank)
  reducesTo_S16x128x128x256_S16x128x128_d3 : S16x128x128x256.ReducesTo [3] S16x128x128
  h_S_ : 0 < S_.numel
  natLt_1_32 : 1 < 32
  reducesTo_S16x128x128_S16x128_d2 : S16x128x128.ReducesTo [2] S16x128
  reducesTo_S16x128x128x256_S16x128x256_d2 : S16x128x128x256.ReducesTo [2] S16x128x256
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  bcast_S16x128x1_S16x128x256_0_1_2 : S16x128x1.BroadcastsInDim S16x128x256 (![0, 1, 2] : Fin 3 → Fin S16x128x256.rank)
  concatenates_S16x128x256_S16x128x256_S16x128x512_d2 : Shape.Concatenates [S16x128x256, S16x128x256] S16x128x512 2
  shapeCasts_S16x128x512_S2048x512 : S16x128x512.ShapeCasts S2048x512
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  dot_S2048x512_S512x256_S2048x256_1_0_0_1_n_n_wf : DotDims.WF S2048x512 S512x256 S2048x256 [1] [0] [0] [1] [] []

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

class Facts : Prop extends Facts₀ where

variable [Facts]
-- ==== Proof.Spec.lean ====
/-
  The value both programs compute for one source node and one hidden unit, on the extended reals.

  A node has 128 neighbour slots, each a 256-vector, for its own features (`xs`) and for its neighbours' (`xn`).
  A neighbour slot counts as present when its row is not all zero; the neighbour rows are summed and divided by the
  number of present slots (at least one), the node's own rows are just summed, and the two 256-vectors are sent through
  the two halves of a linear map (`w1` for the node's own sum, `w2` for the neighbours' mean) with a bias; the result
  goes through the leaky rectifier of slope 1/100 (as the binary32 number nearest to it).
-/
import Idealize.ShloMosaic.Lib.ValueIdx
import Idealize.ShloMosaic.PureOps.Ideal.Laws

noncomputable section

open scoped BigOperators

namespace Cert.Spec

open Idealize.ShloMosaic

/-- The leaky rectifier: the identity above zero, the slope (the binary32 number written 0.01) times the argument
    elsewhere. At zero both branches give zero. -/
def leaky (p : EReal) : EReal := if 0 < p then p else p * Ideal.ofBits .f32 0x3C23D70A#32

/-- How many of the 128 neighbour rows are not all zero. -/
def present (xn : Fin 128 → Fin 256 → EReal) : EReal :=
  ∑ m : Fin 128, if ∃ d : Fin 256, xn m d ≠ 0 then (1 : EReal) else 0

/-- The value before the rectifier: the node's own rows summed and sent through `w1`, the neighbours' rows summed,
    divided by the number of present rows (at least one) and sent through `w2`, plus the bias. -/
def lin (xs xn : Fin 128 → Fin 256 → EReal) (w1 w2 : Fin 256 → Fin 256 → EReal) (bias : Fin 256 → EReal)
    (h : Fin 256) : EReal :=
  (∑ k : Fin 256, (∑ m : Fin 128, xs m k) * w1 k h)
    + (∑ k : Fin 256, Ideal.div (∑ m : Fin 128, xn m k) (max (present xn) 1) * w2 k h)
    + bias h

/-- One node's output at hidden unit `h`. -/
def node (xs xn : Fin 128 → Fin 256 → EReal) (w1 w2 : Fin 256 → Fin 256 → EReal) (bias : Fin 256 → EReal)
    (h : Fin 256) : EReal :=
  leaky (lin xs xn w1 w2 bias h)

end Cert.Spec

end
-- ==== Proof.Count.lean ====
/-
  Counting facts shared by the two sides.

  On the extended reals the absolute value `max a (-a)` is at least zero and is zero only at zero, so a finite sum of
  absolute values is above zero exactly when some term is not zero. A one-bit word widened to thirty-two bits and read
  as a signed integer is 0 or 1; the bitwise OR of finitely many one-bit words is 1 exactly when one of them is; and
  the wrapping sum of fewer than 2³¹ widened bits is the number of set bits, which read as a real is the sum of the
  indicators.
-/
import Idealize.ShloMosaic.PureOps.Ideal.Laws
import Idealize.ShloMosaic.Lib.StableHlo.Predicate

noncomputable section

open scoped BigOperators

namespace Cert.Count

open Idealize.ShloMosaic Idealize.ShloMosaic.StableHlo.Predicate

/-- The absolute value of an extended real is at least zero. -/
theorem abs_nonneg (a : EReal) : 0 ≤ max a (-a) := by
  rcases le_total 0 a with h | h
  · exact le_max_of_le_left h
  · exact le_max_of_le_right (EReal.neg_nonneg.mpr h)

/-- It is zero only at zero. -/
theorem abs_eq_zero_iff (a : EReal) : max a (-a) = 0 ↔ a = 0 := by
  constructor
  · intro h
    by_contra hne
    have := (Ideal.zero_lt_max_neg_iff a).mpr hne
    rw [h] at this
    exact lt_irrefl _ this
  · rintro rfl
    simp

/-- A sum of absolute values is above zero exactly when some term is not zero. -/
theorem abs_sum_pos_iff {n : ℕ} (x : Fin n → EReal) : 0 < ∑ d, max (x d) (-(x d)) ↔ ∃ d, x d ≠ 0 := by
  have hnn : ∀ d ∈ (Finset.univ : Finset (Fin n)), 0 ≤ max (x d) (-(x d)) := fun d _ => abs_nonneg _
  constructor
  · intro hpos
    by_contra hno
    have hall : ∀ d, x d = 0 := fun d => by_contra fun h => hno ⟨d, h⟩
    have h0 : ∑ d, max (x d) (-(x d)) = 0 := Finset.sum_eq_zero fun d _ => by rw [hall d]; simp
    rw [h0] at hpos
    exact lt_irrefl _ hpos
  · rintro ⟨d, hd⟩
    refine lt_of_le_of_ne (Finset.sum_nonneg hnn) fun h0 => ?_
    have := (Finset.sum_eq_zero_iff_of_nonneg hnn).mp h0.symm d (Finset.mem_univ _)
    exact hd ((abs_eq_zero_iff _).mp this)

/-- A one-bit word, widened and converted, is its indicator. -/
theorem sitofp_bit (c : BitVec 1) :
    FloatOps.sitofp (F := Ideal) .f32 (c.setWidth 32) = if c = 1#1 then (1 : EReal) else 0 := by
  rcases BitVec.eq_zero_or_eq_one c with rfl | rfl
  · show (((BitVec.setWidth 32 0#1).toInt : ℝ) : EReal) = _
    simp
  · show (((BitVec.setWidth 32 1#1).toInt : ℝ) : EReal) = _
    have : (BitVec.setWidth 32 1#1).toInt = 1 := by decide
    rw [this]; simp

/-- The OR of finitely many one-bit words is 1 exactly when one of them is. -/
theorem fold_ori_eq_one_iff' {ι : Type} (S : Finset ι) (f : ι → BitVec 1) :
    S.fold IntOp.ori 0#1 f = 1#1 ↔ ∃ k ∈ S, f k = 1#1 := by
  have key : ∀ x y : BitVec 1, IntOp.ori x y = 1#1 ↔ x = 1#1 ∨ y = 1#1 := by decide
  induction S using Finset.cons_induction with
  | empty => simp
  | cons a S ha ih =>
    rw [Finset.fold_cons, key]
    constructor
    · rintro (h | h)
      · exact ⟨a, Finset.mem_cons_self a S, h⟩
      · obtain ⟨k, hk, hk'⟩ := ih.mp h
        exact ⟨k, Finset.mem_cons.mpr (Or.inr hk), hk'⟩
    · rintro ⟨k, hk, hk'⟩
      rcases Finset.mem_cons.mp hk with rfl | hk
      · exact Or.inl hk'
      · exact Or.inr (ih.mpr ⟨k, hk, hk'⟩)

theorem fold_ori_eq_one_iff {n : ℕ} (f : Fin n → BitVec 1) :
    Finset.univ.fold IntOp.ori 0#1 f = 1#1 ↔ ∃ k, f k = 1#1 := by
  rw [fold_ori_eq_one_iff']
  simp

/-- A natural-number sum of indicators, read as an extended real, is the sum of the indicators there. -/
theorem coe_sum_indicator {ι : Type} (S : Finset ι) (p : ι → Prop) [DecidablePred p] :
    ((((∑ m ∈ S, if p m then 1 else 0 : ℕ) : ℤ) : ℝ) : EReal) = ∑ m ∈ S, if p m then (1 : EReal) else 0 := by
  induction S using Finset.cons_induction with
  | empty => simp
  | cons a S ha ih =>
    rw [Finset.sum_cons, Finset.sum_cons, ← ih]
    push_cast
    congr 1
    split_ifs <;> simp

/-- The wrapping sum of fewer than 2³¹ widened bits, converted, is the sum of their indicators. -/
theorem sitofp_fold_addi_bits {n : ℕ} (hn : n < 2 ^ 31) (b : Fin n → BitVec 1) :
    FloatOps.sitofp (F := Ideal) .f32 (Finset.univ.fold IntOp.addi 0#32 (fun m => (b m).setWidth 32))
      = ∑ m, if b m = 1#1 then (1 : EReal) else 0 := by
  classical
  have hsum : ∑ m : Fin n, ((b m).setWidth 32).toNat = ∑ m : Fin n, if b m = 1#1 then 1 else 0 :=
    Finset.sum_congr rfl fun m _ => toNat_setWidth_bit (b m)
  have hle : (∑ m : Fin n, if b m = 1#1 then 1 else 0) ≤ n := by
    calc (∑ m : Fin n, if b m = 1#1 then 1 else 0) ≤ ∑ _m : Fin n, 1 :=
          Finset.sum_le_sum fun m _ => by split_ifs <;> omega
      _ = n := by simp
  have htn := toNat_fold_addi Finset.univ (fun m => (b m).setWidth 32) (by rw [hsum]; omega)
  have hti : (Finset.univ.fold IntOp.addi 0#32 (fun m => (b m).setWidth 32)).toInt
      = ((∑ m : Fin n, if b m = 1#1 then 1 else 0 : ℕ) : ℤ) := by
    rw [toInt_eq_toNat_of_lt (by rw [htn, hsum]; omega), htn, hsum]
  show (((Finset.univ.fold IntOp.addi 0#32 (fun m => (b m).setWidth 32)).toInt : ℝ) : EReal) = _
  rw [hti]
  exact coe_sum_indicator Finset.univ fun m => b m = 1#1

/-- The binary32 pattern of one is the number one. -/
theorem ofBits_one_f32 : Ideal.ofBits .f32 0x3F800000#32 = 1 := IdealRules.sign_bit.ideal_onePat .f32

end Cert.Count

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelNode.lean ====
/-
  The kernel body's stored value at one entry of its 32 × 256 block.

  Entry (si, h) of the block belongs to source node si and hidden unit h. The body sums the node's own 128 rows and its
  neighbours' 128 rows over the row axis, counts the neighbour rows that are not all zero (a row's absolute values
  summed over the feature axis are above zero exactly when some entry is not zero), divides the neighbours' sum by that
  count (at least one), sends the two 256-vectors through the two weight matrices, adds the bias row and applies the
  leaky rectifier. Each step is read at an index, and the result is the shared specification of that node's rows.
-/
import proofs.«105454_j38774964748866_1_alg».proof.Proof.Gen.KernelIdeal.Skeleton
import proofs.«105454_j38774964748866_1_alg».proof.Proof.Spec
import proofs.«105454_j38774964748866_1_alg».proof.Proof.Count
import proofs.«105454_j38774964748866_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.NodeValue

open Idealize.ShloMosaic Idealize.ShloMosaic.ValueIdx Cert.KernelIdeal Cert.KernelIdeal.Gen

/-! ## Sums over one axis, read at coordinates -/

/-- A rank-3 array summed over its last axis reads, at (a, b), the sum over c of the entries (a, b, c). -/
theorem sum_axis2_apply {φ : FTy} {n0 n1 n2 : ℕ} (x : FVec Ideal ⟨3, ![n0, n1, n2]⟩ φ) (acc : BitVec φ.bits)
    (h : (⟨3, ![n0, n1, n2]⟩ : Shape).Reduces [2] ⟨2, ![n0, n1]⟩) (hφ : FKind.Formats φ)
    (hacc : acc = FKind.add.neutral φ hφ) (a : Fin n0) (b : Fin n1) :
    multiReduction (F := Ideal) .add [2] ⟨2, ![n0, n1]⟩ x acc h hφ hacc (ix2 a b) = ∑ c : Fin n2, x (ix3 a b c) := by
  refine (Ideal.multiReduction_add_single x acc h hφ hacc (ix2 a b)).trans ?_
  show ∑ c : Fin n2, x (h.lift (ix2 a b) c) = _
  refine Finset.sum_congr rfl fun c _ => congrArg x ?_
  funext ax; apply Fin.ext
  match ax with
  | ⟨0, _⟩ => rfl
  | ⟨1, _⟩ => rfl
  | ⟨2, _⟩ => rfl

/-- A rank-3 array summed over its middle axis reads, at (a, c), the sum over b of the entries (a, b, c). -/
theorem sum_axis1_apply {φ : FTy} {n0 n1 n2 : ℕ} (x : FVec Ideal ⟨3, ![n0, n1, n2]⟩ φ) (acc : BitVec φ.bits)
    (h : (⟨3, ![n0, n1, n2]⟩ : Shape).Reduces [1] ⟨2, ![n0, n2]⟩) (hφ : FKind.Formats φ)
    (hacc : acc = FKind.add.neutral φ hφ) (a : Fin n0) (c : Fin n2) :
    multiReduction (F := Ideal) .add [1] ⟨2, ![n0, n2]⟩ x acc h hφ hacc (ix2 a c) = ∑ b : Fin n1, x (ix3 a b c) := by
  refine (Ideal.multiReduction_add_single x acc h hφ hacc (ix2 a c)).trans ?_
  show ∑ b : Fin n1, x (h.lift (ix2 a c) b) = _
  refine Finset.sum_congr rfl fun b _ => congrArg x ?_
  funext ax; apply Fin.ext
  match ax with
  | ⟨0, _⟩ => rfl
  | ⟨1, _⟩ => rfl
  | ⟨2, _⟩ => rfl

/-- A matrix summed over its columns reads, at a, the sum over b of the entries (a, b). -/
theorem sum_row_apply {φ : FTy} {n0 n1 : ℕ} (x : FVec Ideal ⟨2, ![n0, n1]⟩ φ) (acc : BitVec φ.bits)
    (h : (⟨2, ![n0, n1]⟩ : Shape).Reduces [1] ⟨1, ![n0]⟩) (hφ : FKind.Formats φ)
    (hacc : acc = FKind.add.neutral φ hφ) (a : Fin n0) :
    multiReduction (F := Ideal) .add [1] ⟨1, ![n0]⟩ x acc h hφ hacc (ix1 a) = ∑ b : Fin n1, x (ix2 a b) := by
  refine (Ideal.multiReduction_add_single x acc h hφ hacc (ix1 a)).trans ?_
  show ∑ b : Fin n1, x (h.lift (ix1 a) b) = _
  refine Finset.sum_congr rfl fun b _ => congrArg x ?_
  funext ax; apply Fin.ext
  match ax with
  | ⟨0, _⟩ => rfl
  | ⟨1, _⟩ => rfl

/-! ## The column forms of a kept axis -/

/-- A vector cast to a one-column matrix reads, at (a, u), the vector at a. -/
theorem shapeCast_a_a1_apply {α : Type} {n : ℕ} (x : (⟨1, ![n]⟩ : Shape).Idx → α)
    (h : (⟨1, ![n]⟩ : Shape).ShapeCasts ⟨2, ![n, 1]⟩) (a : Fin n) (u : Fin 1) :
    shapeCast ⟨2, ![n, 1]⟩ x h (ix2 a u) = x (ix1 a) :=
  shapeCast_apply x h _ _ (by
    have hu : u.val = 0 := by omega
    rw [Shape.rowMajor_val_two, Shape.rowMajor_val_one]
    show a.val = a.val * 1 + u.val
    rw [hu, Nat.mul_one, Nat.add_zero])

/-- A one-column matrix broadcast over b columns reads, at (a, c), the column at a. -/
theorem broadcastTo_a1_ab_apply {α : Type} {n b : ℕ} (v : (⟨2, ![n, 1]⟩ : Shape).Idx → α)
    (h : (⟨2, ![n, 1]⟩ : Shape).Broadcasts ⟨2, ![n, b]⟩) (a : Fin n) (c : Fin b) :
    broadcastTo ⟨2, ![n, b]⟩ v h (ix2 a c) = v (ix2 a (0 : Fin 1)) := by
  refine broadcastTo_apply v h (ix2 a c) (ix2 a (0 : Fin 1)) fun ax => ?_
  match ax with
  | ⟨0, _⟩ =>
    show a.val = if n = 1 then 0 else a.val
    split
    · have := a.isLt; omega
    · rfl
  | ⟨1, _⟩ => rfl

variable [Cert.KernelIdeal.Facts]

/-! ## The count of present neighbour rows -/

/-- One neighbour row's indicator: the row's absolute values summed over the feature axis, compared with zero, widened
    and converted, is 1 when some entry of the row is not zero and 0 otherwise. -/
theorem row_indicator (x : FVec Ideal S32x128x256 .f32) (si : Fin 32) (m : Fin 128)
    (inst : Decidable (∃ d : Fin 256, x (ix3 si m d) ≠ 0)) :
    (sitofp .f32 (extui 32 (cmpf .ogt
        (multiReduction (F := Ideal) .add [2] S32x128 (absf x) 0x00000000#32 reduces_S32x128x256_S32x128 (.inl rfl) rfl)
        (broadcast S32x128 (Scalar.ofBits (F := Ideal) .f32 0x00000000#32))) natLt_1_32) : FVec Ideal S32x128 .f32) (ix2 si m)
      = @ite EReal (∃ d : Fin 256, x (ix3 si m d) ≠ 0) inst 1 0 := by
  have hsum := sum_axis2_apply (absf x) 0x00000000#32 reduces_S32x128x256_S32x128 (.inl rfl) rfl si m
  show FloatOps.sitofp (F := Ideal) .f32
      ((Ideal.cmp .ogt (multiReduction (F := Ideal) .add [2] S32x128 (absf x) 0x00000000#32
        reduces_S32x128x256_S32x128 (.inl rfl) rfl (ix2 si m)) (Ideal.ofBits .f32 0x00000000#32)).setWidth 32) = _
  rw [Cert.Count.sitofp_bit, hsum, Ideal.ofBits_zero_f32]
  have hiff : Ideal.cmp .ogt (∑ c : Fin 256, absf x (ix3 si m c)) 0 = 1#1 ↔ ∃ d : Fin 256, x (ix3 si m d) ≠ 0 := by
    rw [← Cert.Count.abs_sum_pos_iff (fun d => x (ix3 si m d))]
    show BitVec.ofBool (decide ((0 : EReal) < ∑ c : Fin 256, max (x (ix3 si m c)) (-(x (ix3 si m c))))) = 1#1 ↔ _
    by_cases hp : (0 : EReal) < ∑ c : Fin 256, max (x (ix3 si m c)) (-(x (ix3 si m c)))
    · simp [hp]
    · simp [hp]
  by_cases he : ∃ d : Fin 256, x (ix3 si m d) ≠ 0
  · rw [if_pos (hiff.mpr he), if_pos he]
  · rw [if_neg (fun hc => he (hiff.mp hc)), if_neg he]

/-- The number of present rows of node si, as the kernel's column holds it before the maximum with one. -/
theorem present_apply (x : FVec Ideal S32x128x256 .f32) (si : Fin 32) :
    multiReduction (F := Ideal) .add [1] S32
        (sitofp .f32 (extui 32 (cmpf .ogt
          (multiReduction (F := Ideal) .add [2] S32x128 (absf x) 0x00000000#32 reduces_S32x128x256_S32x128 (.inl rfl) rfl)
          (broadcast S32x128 (Scalar.ofBits (F := Ideal) .f32 0x00000000#32))) natLt_1_32) : FVec Ideal S32x128 .f32)
        0x00000000#32 reduces_S32x128_S32 (.inl rfl) rfl (ix1 si)
      = Cert.Spec.present (fun m d => x (ix3 si m d)) := by
  refine (sum_row_apply _ 0x00000000#32 reduces_S32x128_S32 (.inl rfl) rfl si).trans ?_
  unfold Cert.Spec.present
  exact Finset.sum_congr rfl fun m _ => row_indicator x si m _

/-! ## The value before the rectifier -/

/-- The value before the rectifier at (si, h) is the specification's linear part of node si's rows. -/
theorem pay2_lin (v0 v2 : Vec Ideal S1x32x128x256 .f32) (v20 v23 : Vec Ideal S256x256 .f32)
    (v29 : Vec Ideal S1x256 .f32) (si : Fin 32) (h : Fin 256) :
    k0_pay2 (F := Ideal) v0 v2 v20 v23 v29 (ix2 si h)
      = Cert.Spec.lin (fun m k => v0 (ix4 (0 : Fin 1) si m k)) (fun m k => v2 (ix4 (0 : Fin 1) si m k))
          (fun k c => v20 (ix2 k c)) (fun k c => v23 (ix2 k c)) (fun c => v29 (ix2 (0 : Fin 1) c)) h := by
  unfold k0_pay2 Cert.Spec.lin
  show matmul (F := Ideal) dot_S32x256_S256x256_S32x256_1_0_0_1_n_n none _ _ (constant S32x256 .f32 0x00000000#32) (ix2 si h)
      + matmul (F := Ideal) dot_S32x256_S256x256_S32x256_1_0_0_1_n_n none _ _ (constant S32x256 .f32 0x00000000#32) (ix2 si h)
      + broadcastTo S32x256 (shapeCast S1x256 v29 shapeCasts_S1x256_S1x256) broadcasts_S1x256_S32x256 (ix2 si h) = _
  refine congrArg₂ (· + ·) (congrArg₂ (· + ·) ?_ ?_) ?_
  · -- the node's own rows through the first weight matrix
    refine (Cert.LibDot.matmul_10_zero_apply _ rfl rfl rfl rfl rfl rfl none _ _ si h).trans ?_
    refine Finset.sum_congr rfl fun k _ => congrArg₂ (· * ·) ?_ ?_
    · refine (sum_axis1_apply _ 0x00000000#32 reduces_S32x128x256_S32x256 (.inl rfl) rfl si k).trans ?_
      exact Finset.sum_congr rfl fun m _ => shapeCast_1abc_abc_apply v0 _ si m k
    · exact congrFun (shapeCast_self v20 _) (ix2 k h)
  · -- the neighbours' mean through the second weight matrix
    refine (Cert.LibDot.matmul_10_zero_apply _ rfl rfl rfl rfl rfl rfl none _ _ si h).trans ?_
    refine Finset.sum_congr rfl fun k _ => congrArg₂ (· * ·) ?_ ?_
    · show Ideal.div (multiReduction (F := Ideal) .add [1] S32x256 _ 0x00000000#32 reduces_S32x128x256_S32x256 (.inl rfl) rfl (ix2 si k))
          (broadcastTo S32x256 _ broadcasts_S32x1_S32x256 (ix2 si k)) = _
      refine congrArg₂ Ideal.div ?_ ?_
      · refine (sum_axis1_apply _ 0x00000000#32 reduces_S32x128x256_S32x256 (.inl rfl) rfl si k).trans ?_
        exact Finset.sum_congr rfl fun m _ => shapeCast_1abc_abc_apply v2 _ si m k
      · refine (broadcastTo_a1_ab_apply _ broadcasts_S32x1_S32x256 si k).trans ?_
        show max (shapeCast S32x1 _ shapeCasts_S32_S32x1 (ix2 si (0 : Fin 1))) (Ideal.ofBits .f32 0x3F800000#32) = _
        rw [Cert.Count.ofBits_one_f32, shapeCast_a_a1_apply _ shapeCasts_S32_S32x1 si 0, present_apply]
        refine congrArg (fun p => max (Cert.Spec.present p) 1) ?_
        funext m d
        exact shapeCast_1abc_abc_apply v2 _ si m d
    · exact congrFun (shapeCast_self v23 _) (ix2 k h)
  · -- the bias row
    refine (broadcastTo_1b_ab_apply _ broadcasts_S1x256_S32x256 si h).trans ?_
    exact congrFun (shapeCast_self v29 _) (ix2 (0 : Fin 1) h)

/-! ## The stored value -/

/-- The stored value at (si, h) is the specification's value of node si at hidden unit h. -/
theorem pay_node (v0 v2 : Vec Ideal S1x32x128x256 .f32) (v20 v23 : Vec Ideal S256x256 .f32)
    (v29 : Vec Ideal S1x256 .f32) (si : Fin 32) (h : Fin 256) :
    k0_pay1 (F := Ideal) (k0_pay2 v0 v2 v20 v23 v29) (k0_pay3 v0 v2 v20 v23 v29) (ix2 si h)
      = Cert.Spec.node (fun m k => v0 (ix4 (0 : Fin 1) si m k)) (fun m k => v2 (ix4 (0 : Fin 1) si m k))
          (fun k c => v20 (ix2 k c)) (fun k c => v23 (ix2 k c)) (fun c => v29 (ix2 (0 : Fin 1) c)) h := by
  have hp := pay2_lin v0 v2 v20 v23 v29 si h
  unfold k0_pay1 k0_pay3 Cert.Spec.node Cert.Spec.leaky
  show Scalar.select (Ideal.cmp .ogt (k0_pay2 (F := Ideal) v0 v2 v20 v23 v29 (ix2 si h)) (Ideal.ofBits .f32 0x00000000#32))
      (k0_pay2 (F := Ideal) v0 v2 v20 v23 v29 (ix2 si h))
      (k0_pay2 (F := Ideal) v0 v2 v20 v23 v29 (ix2 si h) * Ideal.ofBits .f32 0x3C23D70A#32) = _
  rw [hp, Ideal.ofBits_zero_f32]
  generalize Cert.Spec.lin _ _ _ _ _ h = p
  by_cases hpos : 0 < p
  · rw [if_pos hpos]
    have : Ideal.cmp .ogt p 0 = 1#1 := by
      show BitVec.ofBool (decide ((0 : EReal) < p)) = 1#1
      simp [hpos]
    rw [this, select_one]
  · rw [if_neg hpos]
    have : Ideal.cmp .ogt p 0 = 0#1 := by
      show BitVec.ofBool (decide ((0 : EReal) < p)) = 0#1
      simp [hpos]
    rw [this, select_zero]

end Cert.KernelIdeal.NodeValue

end
-- ==== Proof.Whole.lean ====
/-
  The whole result array as one function of the four argument arrays: row r of the 2048 rows is node (r / 128, r % 128),
  whose own rows and neighbour rows are read from the two feature arrays; the two halves of the linear map are the
  first and the last 256 rows of the 512-row weight array.
-/
import proofs.«105454_j38774964748866_1_alg».proof.Proof.Spec

noncomputable section

namespace Cert.Spec

open Idealize.ShloMosaic Idealize.ShloMosaic.ValueIdx

/-- The batch of the node in row `r`. -/
abbrev batchOf (r : Fin 2048) : Fin 16 := ⟨r.val / 128, by have := r.isLt; omega⟩
/-- Its position among the batch's 128 nodes. -/
abbrev posOf (r : Fin 2048) : Fin 128 := ⟨r.val % 128, Nat.mod_lt _ (by norm_num)⟩

/-- Node (b, s) of the argument arrays. -/
def nodeAt (a0 a1 : FVec Ideal ⟨4, ![16, 128, 128, 256]⟩ .f32) (a2 : FVec Ideal ⟨2, ![512, 256]⟩ .f32)
    (a3 : FVec Ideal ⟨1, ![256]⟩ .f32) (b : Fin 16) (s : Fin 128) (h : Fin 256) : EReal :=
  node (fun m k => a0 (ix4 b s m k)) (fun m k => a1 (ix4 b s m k))
    (fun k c => a2 (ix2 (⟨k.val, by omega⟩ : Fin 512) c)) (fun k c => a2 (ix2 (⟨256 + k.val, by omega⟩ : Fin 512) c))
    (fun c => a3 (ix1 c)) h

/-- The result array. -/
def whole (a0 a1 : FVec Ideal ⟨4, ![16, 128, 128, 256]⟩ .f32) (a2 : FVec Ideal ⟨2, ![512, 256]⟩ .f32)
    (a3 : FVec Ideal ⟨1, ![256]⟩ .f32) : FVec Ideal ⟨2, ![2048, 256]⟩ .f32 :=
  fun i => nodeAt a0 a1 a2 a3 (batchOf ⟨(i 0).val, idx2_lt0 i⟩) (posOf ⟨(i 0).val, idx2_lt0 i⟩) ⟨(i 1).val, idx2_lt1 i⟩

theorem whole_ix2 (a0 a1 : FVec Ideal ⟨4, ![16, 128, 128, 256]⟩ .f32) (a2 : FVec Ideal ⟨2, ![512, 256]⟩ .f32)
    (a3 : FVec Ideal ⟨1, ![256]⟩ .f32) (r : Fin 2048) (h : Fin 256) :
    whole a0 a1 a2 a3 (ix2 r h) = nodeAt a0 a1 a2 a3 (batchOf r) (posOf r) h := rfl

end Cert.Spec

end
-- ==== Proof.KernelArray.lean ====
/-
  From the blocks to the whole array.

  The grid has 64 points, point t = 4·b + q for batch b and quarter q of the batch's 128 nodes. At point t the two
  feature windows hold rows [b, 32q .. 32q+31, all, all] of their arrays, the two weight windows the first and the
  last 256 rows of the weight array (cut out before the region), the bias window the bias as one row, and the output
  window rows 32t .. 32t+31 of the result. Entry (si, h) of the block written at t is the specification's value of the
  node with the block's rows; row 32t + si of the result is node (b, 32q + si), so every point writes its block of the
  one whole-array function, and the 64 blocks cover the 2048 rows.
-/
import proofs.«105454_j38774964748866_1_alg».proof.Proof.Gen.KernelIdeal.Value
import proofs.«105454_j38774964748866_1_alg».proof.Proof.KernelNode
import proofs.«105454_j38774964748866_1_alg».proof.Proof.Whole
import Idealize.ShloMosaic.Lib.ValueLayout
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off4 : (![0, 0, 0, 0] : Fin 4 → Nat) = fun _ => 0 := funext fun a => by fin_cases a <;> rfl

/-- The index maps at point t, decided over the 64 points: the feature windows' block index is (t / 4, t % 4, 0, 0),
    the weight and bias windows stay at block (0, 0), the output's block index is (t, 0). -/
theorem index_facts : ∀ t : Fin cfg0.N,
    win0_0.index t (0 : Fin 4) = t.val / 4 ∧ win0_0.index t (1 : Fin 4) = t.val % 4 ∧ win0_0.index t (2 : Fin 4) = 0 ∧ win0_0.index t (3 : Fin 4) = 0
    ∧ win0_1.index t (0 : Fin 4) = t.val / 4 ∧ win0_1.index t (1 : Fin 4) = t.val % 4 ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## What the region finds in the three arrays the program makes before it -/

/-- The first weight window's array is the first 256 rows of the weight argument. -/
theorem V_v0 (c : Dev nD) : (V m c main_v0 : S256x256.Idx → EReal)
    = extractStridedSlice S256x256 ![0, 0] (m ((c : Thread nD τ).loc main_arg2)) Facts₀.slices_S512x256_S256x256_0_0 := by
  dsimp only [Gen.V, Gen.hostOps0]; after_results

/-- The second weight window's array is its last 256 rows. -/
theorem V_v1 (c : Dev nD) : (V m c main_v1 : S256x256.Idx → EReal)
    = extractStridedSlice S256x256 ![256, 0] (m ((c : Thread nD τ).loc main_arg2)) Facts₀.slices_S512x256_S256x256_256_0 := by
  dsimp only [Gen.V, Gen.hostOps0]; after_results

/-- The bias window's array is the bias argument as one row. -/
theorem V_v2 (c : Dev nD) : (V m c main_v2 : S1x256.Idx → EReal)
    = shapeCast S1x256 (m ((c : Thread nD τ).loc main_arg3)) Facts₀.shapeCasts_S256_S1x256 := by
  dsimp only [Gen.V, Gen.hostOps0]; after_results; rfl

/-! ## The blocks at a point, read at coordinates -/

/-- The own-features block at point t reads rows of batch t / 4 at positions 32 (t % 4) + si. -/
theorem blk0 (c : Dev nD) (t : Fin cfg0.N) (si : Fin 32) (mm : Fin 128) (k : Fin 256) (b : Fin 16) (s : Fin 128)
    (hb : b.val = t.val / 4) (hs : s.val = t.val % 4 * 32 + si.val) :
    iblk m c 0 t (ix4 (0 : Fin 1) si mm k) = m ((c : Thread nD τ).loc main_arg0) (ix4 b s mm k) := by
  obtain ⟨e0, e1, e2, e3, -⟩ := index_facts t
  show V m c main_arg0 (((cfg0.win 0).blk t).view.emb (ix4 (0 : Fin 1) si mm k)) = _
  rw [V_main_arg0]
  refine congrArg _ (funext fun a => Fin.ext ?_)
  match a with
  | ⟨0, _⟩ => show win0_0.index t (0 : Fin 4) * 1 + 1 * (0 : ℕ) = b.val; omega
  | ⟨1, _⟩ => show win0_0.index t (1 : Fin 4) * 32 + 1 * si.val = s.val; omega
  | ⟨2, _⟩ => show win0_0.index t (2 : Fin 4) * 128 + 1 * mm.val = mm.val; omega
  | ⟨3, _⟩ => show win0_0.index t (3 : Fin 4) * 256 + 1 * k.val = k.val; omega

/-- The neighbour-features block likewise. -/
theorem blk1 (c : Dev nD) (t : Fin cfg0.N) (si : Fin 32) (mm : Fin 128) (k : Fin 256) (b : Fin 16) (s : Fin 128)
    (hb : b.val = t.val / 4) (hs : s.val = t.val % 4 * 32 + si.val) :
    iblk m c 1 t (ix4 (0 : Fin 1) si mm k) = m ((c : Thread nD τ).loc main_arg1) (ix4 b s mm k) := by
  obtain ⟨-, -, -, -, e0, e1, e2, e3, -⟩ := index_facts t
  show V m c main_arg1 (((cfg0.win 1).blk t).view.emb (ix4 (0 : Fin 1) si mm k)) = _
  rw [V_main_arg1]
  refine congrArg _ (funext fun a => Fin.ext ?_)
  match a with
  | ⟨0, _⟩ => show win0_1.index t (0 : Fin 4) * 1 + 1 * (0 : ℕ) = b.val; omega
  | ⟨1, _⟩ => show win0_1.index t (1 : Fin 4) * 32 + 1 * si.val = s.val; omega
  | ⟨2, _⟩ => show win0_1.index t (2 : Fin 4) * 128 + 1 * mm.val = mm.val; omega
  | ⟨3, _⟩ => show win0_1.index t (3 : Fin 4) * 256 + 1 * k.val = k.val; omega

/-- The first weight block is rows 0 .. 255 of the weight argument. -/
theorem blk2 (c : Dev nD) (t : Fin cfg0.N) (k h : Fin 256) :
    iblk m c 2 t (ix2 k h) = m ((c : Thread nD τ).loc main_arg2) (ix2 (⟨k.val, by omega⟩ : Fin 512) h) := by
  obtain ⟨-, -, -, -, -, -, -, -, e0, e1, -⟩ := index_facts t
  show V m c main_v0 (((cfg0.win 2).blk t).view.emb (ix2 k h)) = _
  rw [V_v0]
  refine extractStridedSlice_apply _ _ _ _ _ fun a => ?_
  match a with
  | ⟨0, _⟩ => show k.val = 0 + (win0_2.index t (0 : Fin 2) * 256 + 1 * k.val); omega
  | ⟨1, _⟩ => show h.val = 0 + (win0_2.index t (1 : Fin 2) * 256 + 1 * h.val); omega

/-- The second weight block is rows 256 .. 511. -/
theorem blk3 (c : Dev nD) (t : Fin cfg0.N) (k h : Fin 256) :
    iblk m c 3 t (ix2 k h) = m ((c : Thread nD τ).loc main_arg2) (ix2 (⟨256 + k.val, by omega⟩ : Fin 512) h) := by
  obtain ⟨-, -, -, -, -, -, -, -, -, -, e0, e1, -⟩ := index_facts t
  show V m c main_v1 (((cfg0.win 3).blk t).view.emb (ix2 k h)) = _
  rw [V_v1]
  refine extractStridedSlice_apply _ _ _ _ _ fun a => ?_
  match a with
  | ⟨0, _⟩ => show 256 + k.val = 256 + (win0_3.index t (0 : Fin 2) * 256 + 1 * k.val); omega
  | ⟨1, _⟩ => show h.val = 0 + (win0_3.index t (1 : Fin 2) * 256 + 1 * h.val); omega

/-- The bias block is the bias. -/
theorem blk4 (c : Dev nD) (t : Fin cfg0.N) (h : Fin 256) :
    iblk m c 4 t (ix2 (0 : Fin 1) h) = m ((c : Thread nD τ).loc main_arg3) (ix1 h) := by
  obtain ⟨-, -, -, -, -, -, -, -, -, -, -, -, e0, e1, -⟩ := index_facts t
  show V m c main_v2 (((cfg0.win 4).blk t).view.emb (ix2 (0 : Fin 1) h)) = _
  rw [V_v2]
  have hidx : ((cfg0.win 4).blk t).view.emb (ix2 (0 : Fin 1) h) = ix2 (0 : Fin 1) h := by
    funext a; apply Fin.ext
    match a with
    | ⟨0, _⟩ => show win0_4.index t (0 : Fin 2) * 1 + 1 * (0 : ℕ) = 0; omega
    | ⟨1, _⟩ => show win0_4.index t (1 : Fin 2) * 256 + 1 * h.val = h.val; omega
  rw [hidx]
  exact shapeCast_a_1a_apply _ _ 0 h

/-! ## What a point writes back, and the whole array -/

/-- What point t writes back is block t of the whole-array function of the arguments. -/
theorem flushed_eq (c : Dev nD) (t : Fin cfg0.N) :
    (dats m 0 c).flushed 5 t = ((cfg0.win 5).blk t).view.read (Elt Ideal)
      (Cert.Spec.whole (m ((c : Thread nD τ).loc main_arg0)) (m ((c : Thread nD τ).loc main_arg1))
        (m ((c : Thread nD τ).loc main_arg2)) (m ((c : Thread nD τ).loc main_arg3))) := by
  rw [Value.flushed5]
  unfold out0_5
  rw [View.canon_unit_zero off2]
  simp only [View.ld_unit_zero (S := S1x32x128x256) off4, View.ld_unit_zero (S := S256x256) off2, View.ld_unit_zero (S := S1x256) off2]
  obtain ⟨-, -, -, -, -, -, -, -, -, -, -, -, -, -, e0, e1⟩ := index_facts t
  funext j
  obtain ⟨si, h, rfl⟩ : ∃ (si : Fin 32) (h : Fin 256), j = ix2 si h := ⟨j 0, j 1, eq_ix2 j⟩
  have ht : t.val < 64 := by have h1 := t.isLt; have hN : cfg0.N = 64 := N_0; omega
  have hrow : win0_5.index t (0 : Fin 2) * 32 + 1 * si.val < 2048 := by omega
  have hcol : win0_5.index t (1 : Fin 2) * 256 + 1 * h.val < 256 := by omega
  show k0_pay1 (F := Ideal) (k0_pay2 (iblk m c 0 t) (iblk m c 1 t) (iblk m c 2 t) (iblk m c 3 t) (iblk m c 4 t))
        (k0_pay3 (iblk m c 0 t) (iblk m c 1 t) (iblk m c 2 t) (iblk m c 3 t) (iblk m c 4 t)) (ix2 si h)
      = Cert.Spec.nodeAt (m ((c : Thread nD τ).loc main_arg0)) (m ((c : Thread nD τ).loc main_arg1))
          (m ((c : Thread nD τ).loc main_arg2)) (m ((c : Thread nD τ).loc main_arg3))
          (Cert.Spec.batchOf ⟨win0_5.index t (0 : Fin 2) * 32 + 1 * si.val, hrow⟩)
          (Cert.Spec.posOf ⟨win0_5.index t (0 : Fin 2) * 32 + 1 * si.val, hrow⟩)
          ⟨win0_5.index t (1 : Fin 2) * 256 + 1 * h.val, hcol⟩
  rw [Cert.KernelIdeal.NodeValue.pay_node]
  unfold Cert.Spec.nodeAt
  have hh : (⟨win0_5.index t (1 : Fin 2) * 256 + 1 * h.val, hcol⟩ : Fin 256) = h :=
    Fin.ext (show win0_5.index t (1 : Fin 2) * 256 + 1 * h.val = h.val by omega)
  rw [hh]
  congr 1
  · funext mm k
    exact blk0 m c t si mm k _ _ (show (win0_5.index t (0 : Fin 2) * 32 + 1 * si.val) / 128 = t.val / 4 by omega)
      (show (win0_5.index t (0 : Fin 2) * 32 + 1 * si.val) % 128 = t.val % 4 * 32 + si.val by omega)
  · funext mm k
    exact blk1 m c t si mm k _ _ (show (win0_5.index t (0 : Fin 2) * 32 + 1 * si.val) / 128 = t.val / 4 by omega)
      (show (win0_5.index t (0 : Fin 2) * 32 + 1 * si.val) % 128 = t.val % 4 * 32 + si.val by omega)
  · funext k c'
    exact blk2 m c t k c'
  · funext k c'
    exact blk3 m c t k c'
  · funext c'
    exact blk4 m c t c'

/-- An index of the result is in point t's block iff each coordinate is in the block's range on its axis. -/
theorem mem_blk (t : Fin cfg0.N) (i : S2048x256.Idx) :
    i ∈ ((cfg0.win 5).blk t).view.set ↔ ∀ a : Fin 2, win0_5.index t a * S32x256.size a ≤ (i a).val ∧ (i a).val < win0_5.index t a * S32x256.size a + S32x256.size a := by
  show i ∈ ((View.whole main_v3).slice (win0_5.rect t)).set ↔ _
  rw [View.set_slice_whole, Rect.mem_set_unit]
  exact Iff.rfl

/-- Every row of the result is in the block of the point that is the row's number divided by 32. -/
theorem cover (i : S2048x256.Idx) : ∃ t : Fin cfg0.N, (cfg0.win 5).flush t = true ∧ i ∈ ((cfg0.win 5).blk t).view.set := by
  have hi0 : (i 0).val < 2048 := (i 0).isLt
  have hi1 : (i 1).val < 256 := (i 1).isLt
  have hN : (i 0).val / 32 < cfg0.N := by have h64 : cfg0.N = 64 := N_0; omega
  refine ⟨⟨(i 0).val / 32, hN⟩, flush0_5 _, ?_⟩
  obtain ⟨-, -, -, -, -, -, -, -, -, -, -, -, -, -, e0, e1⟩ := index_facts ⟨(i 0).val / 32, hN⟩
  rw [mem_blk]
  intro a
  match a with
  | ⟨0, _⟩ =>
    show win0_5.index ⟨(i 0).val / 32, hN⟩ (0 : Fin 2) * 32 ≤ (i 0).val ∧ (i 0).val < win0_5.index ⟨(i 0).val / 32, hN⟩ (0 : Fin 2) * 32 + 32
    have : win0_5.index ⟨(i 0).val / 32, hN⟩ (0 : Fin 2) = (i 0).val / 32 := e0
    omega
  | ⟨1, _⟩ =>
    show win0_5.index ⟨(i 0).val / 32, hN⟩ (1 : Fin 2) * 256 ≤ (i 1).val ∧ (i 1).val < win0_5.index ⟨(i 0).val / 32, hN⟩ (1 : Fin 2) * 256 + 256
    omega

/-- The result array after the run is the whole-array function of the arguments. -/
theorem final (c : Dev nD) : (dats m 0 c).arrAt 5 cfg0.N
    = Cert.Spec.whole (m ((c : Thread nD τ).loc main_arg0)) (m ((c : Thread nD τ).loc main_arg1))
        (m ((c : Thread nD τ).loc main_arg2)) (m ((c : Thread nD τ).loc main_arg3)) :=
  (dats m 0 c).arrAt_eq_of_cover 5 _ (fun t _ => flushed_eq m c t) cover

/-- Every weakly fair execution of the program terminates with the result buffer at the whole-array function of
    the argument arrays, which stay as they were. -/
theorem run : θ_run defs (onTc (τ := τ) (main (F := Ideal))) ⟨m, fun _ => 0, ρ⟩ fun r => ∀ c : Dev nD,
      r.2.mem ((c : Thread nD τ).loc main_v3)
          = Cert.Spec.whole (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RefTerm.lean ====
/-
  The reference program's result as one term of its four argument arrays: its host operations composed in order.

  A neighbour row is present when some entry differs from zero (an OR over the feature axis of the entrywise test);
  the present rows are counted as integers and the count converted; the neighbours' rows are summed and divided by the
  count (at least one), the node's own rows are summed, the two are laid side by side into a 512-vector per node, the
  nodes are listed in one axis of 2048, the linear map and the bias are applied, and last the leaky rectifier, written
  as a choice on "at least zero" between the value and the slope times the value.
-/
import proofs.«105454_j38774964748866_1_alg».proof.ReferenceIdeal

noncomputable section

namespace Cert.ReferenceIdeal.RefValue

open Cert.ReferenceIdeal Idealize.ShloMosaic
open Cert.ReferenceIdeal.Facts₀

variable {F : FTy → Type} [FloatOps F] [Facts]

/-- The number of present neighbour rows of every node, converted to a float. -/
def countF (a1 : Vec F S16x128x128x256 .f32) : Vec F S16x128 .f32 :=
  sitofp .f32
    (Host.reduce IntOp.addi
      (extui 32
        (Host.reduce IntOp.ori
          (cmpf .une a1 (broadcastInDim S16x128x128x256 ![] bcast_S_S16x128x128x256 (constant S_ .f32 0x00000000#32)))
          (constantI S_ 1 0#1) reducesTo_S16x128x128x256_S16x128x128_d3 h_S_)
        natLt_1_32)
      (constantI S_ 32 0#32) reducesTo_S16x128x128_S16x128_d2 h_S_)

/-- The neighbours' rows summed per node and feature, divided by the count of present rows (at least one). -/
def neighMean (a1 : Vec F S16x128x128x256 .f32) : Vec F S16x128x256 .f32 :=
  Host.divf
    (Host.reduceAdd a1 (constant S_ .f32 0x00000000#32) reducesTo_S16x128x128x256_S16x128x256_d2 h_S_)
    (broadcastInDim S16x128x256 ![0, 1, 2] bcast_S16x128x1_S16x128x256_0_1_2
      (broadcastInDim S16x128x1 ![0, 1] bcast_S16x128_S16x128x1_0_1
        (maximumf (countF a1) (broadcastInDim S16x128 ![] bcast_S_S16x128 (constant S_ .f32 0x3F800000#32)))))

/-- The value before the rectifier: own sums and neighbour means side by side, one row per node, through the linear
    map, plus the bias along every row. -/
def preAct (a0 a1 : Vec F S16x128x128x256 .f32) (a2 : Vec F S512x256 .f32) (a3 : Vec F S256 .f32) : Vec F S2048x256 .f32 :=
  addf
    (Host.dotGeneral dot_S2048x512_S512x256_S2048x256_1_0_0_1_n_n none
      (shapeCast S2048x512
        (concatenate S16x128x512 2
          [⟨S16x128x256, Host.reduceAdd a0 (constant S_ .f32 0x00000000#32) reducesTo_S16x128x128x256_S16x128x256_d2 h_S_⟩,
           ⟨S16x128x256, neighMean a1⟩]
          concatenates_S16x128x256_S16x128x256_S16x128x512_d2)
        shapeCasts_S16x128x512_S2048x512)
      a2)
    (broadcastInDim S2048x256 ![0, 1] bcast_S1x256_S2048x256_0_1 (broadcastInDim S1x256 ![1] bcast_S256_S1x256_1 a3))

/-- The reference's result. -/
def result (a0 a1 : Vec F S16x128x128x256 .f32) (a2 : Vec F S512x256 .f32) (a3 : Vec F S256 .f32) : Vec F S2048x256 .f32 :=
  select
    (cmpf .oge (preAct a0 a1 a2 a3) (broadcastInDim S2048x256 ![] bcast_S_S2048x256 (constant S_ .f32 0x00000000#32)))
    (preAct a0 a1 a2 a3)
    (mulf (broadcastInDim S2048x256 ![] bcast_S_S2048x256 (id (constant S_ .f32 0x3C23D70A#32))) (preAct a0 a1 a2 a3))

end Cert.ReferenceIdeal.RefValue

end
-- ==== Proof.RefRun.lean ====
/-
  The reference program's run: its host operations listed in order (the rectifier's and the choice's operations at
  the place they are called, over that call's buffers), and what the result buffer holds after them — the composed
  term `RefValue.result` of the four argument arrays, which stay as they were.
-/
import proofs.«105454_j38774964748866_1_alg».proof.Proof.Gen.ReferenceIdeal
import proofs.«105454_j38774964748866_1_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- The program's 33 operations, in order. -/
abbrev ops : List (HloOp τ sig (Elt F)) :=
  [ nullary main_cst (constant S_ .f32 0x00000000#32),
    unary main_cst main_v0 (broadcastInDim S16x128x128x256 ![] bcast_S_S16x128x128x256 : (⟨S_, .f32⟩ : BufTy).Contents (Elt F) → (⟨S16x128x128x256, .f32⟩ : BufTy).Contents (Elt F)),
    binary main_arg1 main_v0 main_v1 (cmpf .une : (⟨S16x128x128x256, .f32⟩ : BufTy).Contents (Elt F) → (⟨S16x128x128x256, .f32⟩ : BufTy).Contents (Elt F) → (⟨S16x128x128x256, .i1⟩ : BufTy).Contents (Elt F)),
    nullary main_c (constantI S_ 1 0#1),
    binary main_v1 main_c main_v2 ((fun x v => Host.reduce IntOp.ori x v reducesTo_S16x128x128x256_S16x128x128_d3 h_S_) : (⟨S16x128x128x256, .i1⟩ : BufTy).Contents (Elt F) → (⟨S_, .i1⟩ : BufTy).Contents (Elt F) → (⟨S16x128x128, .i1⟩ : BufTy).Contents (Elt F)),
    unary main_v2 main_v3 ((extui 32 · natLt_1_32) : (⟨S16x128x128, .i1⟩ : BufTy).Contents (Elt F) → (⟨S16x128x128, .i32⟩ : BufTy).Contents (Elt F)),
    nullary main_c_0 (constantI S_ 32 0#32),
    binary main_v3 main_c_0 main_v4 ((fun x v => Host.reduce IntOp.addi x v reducesTo_S16x128x128_S16x128_d2 h_S_) : (⟨S16x128x128, .i32⟩ : BufTy).Contents (Elt F) → (⟨S_, .i32⟩ : BufTy).Contents (Elt F) → (⟨S16x128, .i32⟩ : BufTy).Contents (Elt F)),
    unary main_v4 main_v5 (sitofp .f32 : (⟨S16x128, .i32⟩ : BufTy).Contents (Elt F) → (⟨S16x128, .f32⟩ : BufTy).Contents (Elt F)),
    nullary main_cst_1 (constant S_ .f32 0x00000000#32),
    binary main_arg1 main_cst_1 main_v6 ((fun x v => Host.reduceAdd x v reducesTo_S16x128x128x256_S16x128x256_d2 h_S_) : (⟨S16x128x128x256, .f32⟩ : BufTy).Contents (Elt F) → (⟨S_, .f32⟩ : BufTy).Contents (Elt F) → (⟨S16x128x256, .f32⟩ : BufTy).Contents (Elt F)),
    nullary main_cst_2 (constant S_ .f32 0x3F800000#32),
    unary main_cst_2 main_v7 (broadcastInDim S16x128 ![] bcast_S_S16x128 : (⟨S_, .f32⟩ : BufTy).Contents (Elt F) → (⟨S16x128, .f32⟩ : BufTy).Contents (Elt F)),
    binary main_v5 main_v7 main_v8 (maximumf : (⟨S16x128, .f32⟩ : BufTy).Contents (Elt F) → (⟨S16x128, .f32⟩ : BufTy).Contents (Elt F) → (⟨S16x128, .f32⟩ : BufTy).Contents (Elt F)),
    unary main_v8 main_v9 (broadcastInDim S16x128x1 ![0, 1] bcast_S16x128_S16x128x1_0_1 : (⟨S16x128, .f32⟩ : BufTy).Contents (Elt F) → (⟨S16x128x1, .f32⟩ : BufTy).Contents (Elt F)),
    unary main_v9 main_v10 (broadcastInDim S16x128x256 ![0, 1, 2] bcast_S16x128x1_S16x128x256_0_1_2 : (⟨S16x128x1, .f32⟩ : BufTy).Contents (Elt F) → (⟨S16x128x256, .f32⟩ : BufTy).Contents (Elt F)),
    binary main_v6 main_v10 main_v11 (Host.divf : (⟨S16x128x256, .f32⟩ : BufTy).Contents (Elt F) → (⟨S16x128x256, .f32⟩ : BufTy).Contents (Elt F) → (⟨S16x128x256, .f32⟩ : BufTy).Contents (Elt F)),
    nullary main_cst_3 (constant S_ .f32 0x00000000#32),
    binary main_arg0 main_cst_3 main_v12 ((fun x v => Host.reduceAdd x v reducesTo_S16x128x128x256_S16x128x256_d2 h_S_) : (⟨S16x128x128x256, .f32⟩ : BufTy).Contents (Elt F) → (⟨S_, .f32⟩ : BufTy).Contents (Elt F) → (⟨S16x128x256, .f32⟩ : BufTy).Contents (Elt F)),
    binary main_v12 main_v11 main_v13 ((fun a b => concatenate S16x128x512 2 [⟨S16x128x256, a⟩, ⟨S16x128x256, b⟩] concatenates_S16x128x256_S16x128x256_S16x128x512_d2) : (⟨S16x128x256, .f32⟩ : BufTy).Contents (Elt F) → (⟨S16x128x256, .f32⟩ : BufTy).Contents (Elt F) → (⟨S16x128x512, .f32⟩ : BufTy).Contents (Elt F)),
    reshape main_v13 main_v14 rfl shapeCasts_S16x128x512_S2048x512,
    binary main_v14 main_arg2 main_v15 ((fun l r => Host.dotGeneral dot_S2048x512_S512x256_S2048x256_1_0_0_1_n_n none l r) : (⟨S2048x512, .f32⟩ : BufTy).Contents (Elt F) → (⟨S512x256, .f32⟩ : BufTy).Contents (Elt F) → (⟨S2048x256, .f32⟩ : BufTy).Contents (Elt F)),
    unary main_arg3 main_v16 (broadcastInDim S1x256 ![1] bcast_S256_S1x256_1 : (⟨S256, .f32⟩ : BufTy).Contents (Elt F) → (⟨S1x256, .f32⟩ : BufTy).Contents (Elt F)),
    unary main_v16 main_v17 (broadcastInDim S2048x256 ![0, 1] bcast_S1x256_S2048x256_0_1 : (⟨S1x256, .f32⟩ : BufTy).Contents (Elt F) → (⟨S2048x256, .f32⟩ : BufTy).Contents (Elt F)),
    binary main_v15 main_v17 main_v18 (addf : (⟨S2048x256, .f32⟩ : BufTy).Contents (Elt F) → (⟨S2048x256, .f32⟩ : BufTy).Contents (Elt F) → (⟨S2048x256, .f32⟩ : BufTy).Contents (Elt F)),
    nullary main_cst_4 (constant S_ .f32 0x3C23D70A#32),
    TRef.nullary main_call0.cst (constant S_ .f32 0x00000000#32),
    TRef.unary main_call0.cst main_call0.v0 (broadcastInDim S2048x256 ![] bcast_S_S2048x256),
    TRef.binary (.of main_v18) main_call0.v0 main_call0.v1 (cmpf .oge),
    TRef.unary (.of main_cst_4) main_call0.v2 id,
    TRef.unary main_call0.v2 main_call0.v3 (broadcastInDim S2048x256 ![] bcast_S_S2048x256),
    TRef.binary main_call0.v3 (.of main_v18) main_call0.v4 mulf,
    TRef.ternary main_call0.v1 (.of main_v18) main_call0.v4 main_call0.call0.v0 select ]

set_option maxRecDepth 2048 in
/-- The program is that straight line: the two called functions' bodies unfolded at their calls, the sequencing
    reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., binary_bufs_sub .., unary_bufs_sub ..,
    nullary_bufs_sub .., binary_bufs_sub .., unary_bufs_sub .., nullary_bufs_sub .., binary_bufs_sub .., nullary_bufs_sub ..,
    unary_bufs_sub .., binary_bufs_sub .., unary_bufs_sub .., unary_bufs_sub .., binary_bufs_sub .., nullary_bufs_sub ..,
    binary_bufs_sub .., binary_bufs_sub .., reshape_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub ..⟩

set_option maxHeartbeats 1600000 in
/-- After the operations the result buffer holds the composed term of the argument buffers' contents: each
    operation's result is read at its own buffer and passed over at the others, outermost first. -/
theorem out_eq (V : Valuation τ sig (Elt F)) :
    after ops V (main_v19 : DevRef τ sig)
      = result (V (main_arg0 : DevRef τ sig)) (V (main_arg1 : DevRef τ sig)) (V (main_arg2 : DevRef τ sig))
          (V (main_arg3 : DevRef τ sig)) := by
  after_results
  rfl

/-- No operation writes an argument buffer. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results

/-- From any memory with zero counters every weakly fair execution of the program terminates with the result
    buffer at `result` of the argument arrays, and the argument arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v19).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.RefNode.lean ====
/-
  The reference's result read at one entry: at row b·128+s and column h it is the shared specification's value for
  node (b, s) at hidden unit h.

  Each step is read at explicit coordinates. A neighbour row's presence bit is the OR over its 256 entries of the test
  "differs from zero", so it is set exactly when the row is not all zero; the 128 bits of a node, widened and added as
  integers, convert to the number of present rows. A sum over the slot axis at (b, s, k) is the sum over the 128 slots
  of the entries (b, s, m, k). The neighbours' mean divides that sum by the larger of the count and one. Side by side
  along the feature axis, columns below 256 read the node's own sums and columns from 256 on read the means; listing the
  nodes in one axis sends node (b, s) to row b·128+s. The linear map at (row, h) is the sum over the 512 features, split
  into its two halves of 256; the bias reads its entry at the column. Last, the rectifier written as a choice on "at
  least zero" agrees with the specification's, since at zero both branches give zero.
-/
import proofs.«105454_j38774964748866_1_alg».proof.Proof.RefTerm
import proofs.«105454_j38774964748866_1_alg».proof.Proof.Spec
import proofs.«105454_j38774964748866_1_alg».proof.Proof.Count
import proofs.«105454_j38774964748866_1_alg».proof.Proof.LibDot
import Idealize.ShloMosaic.Lib.ValueIdx
import Idealize.ShloMosaic.Lib.IdealHost
import Idealize.ShloMosaic.Lib.Pipeline.Value
import Idealize.ShloMosaic.PureOps.Reduce
import Idealize.ShloMosaic.PureOps.Ideal.Laws

noncomputable section

open scoped BigOperators

namespace Cert.ReferenceIdeal.NodeValue

open Idealize.ShloMosaic Idealize.ShloMosaic.ValueIdx Cert.ReferenceIdeal Cert.ReferenceIdeal.RefValue
open Cert.ReferenceIdeal.Facts₀

variable [Cert.ReferenceIdeal.Facts]

/-- The shape facts that name the inserted coordinate of each one-axis reduction. -/
theorem red3 : S16x128x128x256.Reduces [3] S16x128x128 := by decide
theorem red2i : S16x128x128.Reduces [2] S16x128 := by decide
theorem red2 : S16x128x128x256.Reduces [2] S16x128x256 := by decide

/-- The index (b, s) with a slot inserted on axis 2 is (b, s, m). -/
theorem lift2i (b : Fin 16) (s : Fin 128) (m : Fin 128) : red2i.lift (ix2 b s) m = ix3 b s m := by
  funext a; apply Fin.ext
  match a with
  | ⟨0, _⟩ => rfl
  | ⟨1, _⟩ => rfl
  | ⟨2, _⟩ => rfl

/-- The index (b, s, m) with a feature inserted on axis 3 is (b, s, m, d). -/
theorem lift3 (b : Fin 16) (s : Fin 128) (m : Fin 128) (d : Fin 256) : red3.lift (ix3 b s m) d = ix4 b s m d := by
  funext a; apply Fin.ext
  match a with
  | ⟨0, _⟩ => rfl
  | ⟨1, _⟩ => rfl
  | ⟨2, _⟩ => rfl
  | ⟨3, _⟩ => rfl

/-- The index (b, s, k) with a slot inserted on axis 2 is (b, s, m, k). -/
theorem lift2 (b : Fin 16) (s : Fin 128) (k : Fin 256) (m : Fin 128) : red2.lift (ix3 b s k) m = ix4 b s m k := by
  funext a; apply Fin.ext
  match a with
  | ⟨0, _⟩ => rfl
  | ⟨1, _⟩ => rfl
  | ⟨2, _⟩ => rfl
  | ⟨3, _⟩ => rfl

/-- The entrywise test "differs from zero" at an entry, as a bit. -/
theorem ne_zero_bit (a1 : FVec Ideal S16x128x128x256 .f32) (b : Fin 16) (s m : Fin 128) (d : Fin 256) :
    cmpf .une a1 (broadcastInDim S16x128x128x256 ![] bcast_S_S16x128x128x256 (constant (F := Ideal) S_ .f32 0x00000000#32)) (ix4 b s m d)
      = BitVec.ofBool (decide (a1 (ix4 b s m d) ≠ 0)) := by
  rw [cmpf_apply, broadcastInDim_scalar_apply, constant_apply, Ideal.ofBits_zero_f32, Ideal.cmpf_def]
  rfl

/-- A neighbour row's presence bit: the OR over the feature axis is set exactly when some entry differs from zero. -/
theorem row_bit (a1 : FVec Ideal S16x128x128x256 .f32) (b : Fin 16) (s m : Fin 128) :
    Host.reduce IntOp.ori
        (cmpf .une a1 (broadcastInDim S16x128x128x256 ![] bcast_S_S16x128x128x256 (constant (F := Ideal) S_ .f32 0x00000000#32)))
        (constantI S_ 1 0#1) reducesTo_S16x128x128x256_S16x128x128_d3 h_S_ (ix3 b s m) = 1#1
      ↔ ∃ d : Fin 256, a1 (ix4 b s m d) ≠ 0 := by
  rw [Host.reduce_eq_fold_single IntOp.ori _ _ reducesTo_S16x128x128x256_S16x128x128_d3 red3 h_S_ (ix3 b s m)]
  show Finset.univ.fold IntOp.ori 0#1 (fun d : Fin 256 => _) = 1#1 ↔ _
  rw [Cert.Count.fold_ori_eq_one_iff]
  refine exists_congr fun d => ?_
  show cmpf .une a1 _ (red3.lift (ix3 b s m) d) = 1#1 ↔ _
  rw [lift3, ne_zero_bit]
  by_cases h : a1 (ix4 b s m d) = 0 <;> simp [h]

/-- The converted count at node (b, s) is the number of neighbour rows that are not all zero. -/
theorem countF_apply (a1 : FVec Ideal S16x128x128x256 .f32) (b : Fin 16) (s : Fin 128) :
    countF (F := Ideal) a1 (ix2 b s) = Cert.Spec.present (fun m k => a1 (ix4 b s m k)) := by
  unfold countF Cert.Spec.present
  rw [sitofp_apply, Host.reduce_eq_fold_single IntOp.addi _ _ reducesTo_S16x128x128_S16x128_d2 red2i h_S_ (ix2 b s)]
  show FloatOps.sitofp (F := Ideal) .f32 (Finset.univ.fold IntOp.addi 0#32 (fun m : Fin 128 =>
      (Host.reduce IntOp.ori
        (cmpf .une a1 (broadcastInDim S16x128x128x256 ![] bcast_S_S16x128x128x256 (constant (F := Ideal) S_ .f32 0x00000000#32)))
        (constantI S_ 1 0#1) reducesTo_S16x128x128x256_S16x128x128_d3 h_S_ (red2i.lift (ix2 b s) m)).setWidth 32)) = _
  rw [Cert.Count.sitofp_fold_addi_bits (by norm_num)]
  refine Finset.sum_congr rfl fun m _ => ?_
  rw [lift2i]
  by_cases hm : ∃ d : Fin 256, a1 (ix4 b s m d) ≠ 0
  · rw [if_pos ((row_bit a1 b s m).2 hm), if_pos hm]
  · rw [if_neg (mt (row_bit a1 b s m).1 hm), if_neg hm]

/-- The rows of an array summed over the slot axis, at node (b, s) and feature k. -/
theorem rowSum_apply (a : FVec Ideal S16x128x128x256 .f32) (b : Fin 16) (s : Fin 128) (k : Fin 256) :
    Host.reduceAdd (F := Ideal) a (constant (F := Ideal) S_ .f32 0x00000000#32) reducesTo_S16x128x128x256_S16x128x256_d2 h_S_ (ix3 b s k)
      = ∑ m : Fin 128, a (ix4 b s m k) := by
  rw [hostReduceAdd_apply, Ideal.hostReduceAdd_single reducesTo_S16x128x128x256_S16x128x256_d2 red2, constant_apply,
    Ideal.ofBits_zero_f32, zero_add]
  exact Finset.sum_congr rfl fun m _ => congrArg a (lift2 b s k m)

/-- The count (at least one), spread along the feature axis, reads the node's count at every feature. -/
theorem denom_apply (c : FVec Ideal S16x128 .f32) (b : Fin 16) (s : Fin 128) (k : Fin 256) :
    broadcastInDim S16x128x256 ![0, 1, 2] bcast_S16x128x1_S16x128x256_0_1_2
        (broadcastInDim S16x128x1 ![0, 1] bcast_S16x128_S16x128x1_0_1 c) (ix3 b s k) = c (ix2 b s) := by
  rw [broadcastInDim_apply _ _ _ (ix3 b s k) (ix3 b s (0 : Fin 1)) (fun a => by
        match a with
        | ⟨0, _⟩ => rfl
        | ⟨1, _⟩ => rfl
        | ⟨2, _⟩ => rfl),
    broadcastInDim_apply _ _ _ (ix3 b s (0 : Fin 1)) (ix2 b s) (fun a => by
        match a with
        | ⟨0, _⟩ => rfl
        | ⟨1, _⟩ => rfl)]

/-- The neighbours' mean at node (b, s) and feature k. -/
theorem neighMean_apply (a1 : FVec Ideal S16x128x128x256 .f32) (b : Fin 16) (s : Fin 128) (k : Fin 256) :
    neighMean (F := Ideal) a1 (ix3 b s k)
      = Ideal.div (∑ m : Fin 128, a1 (ix4 b s m k)) (max (Cert.Spec.present (fun m k => a1 (ix4 b s m k))) 1) := by
  unfold neighMean
  rw [hostDivf_apply, rowSum_apply, denom_apply, maximumf_apply, countF_apply, broadcastInDim_scalar_apply, constant_apply,
    Cert.Count.ofBits_one_f32]

/-- The bias spread along the rows reads the bias at the column. -/
theorem bias_apply (a3 : FVec Ideal S256 .f32) (r : Fin 2048) (h : Fin 256) :
    broadcastInDim S2048x256 ![0, 1] bcast_S1x256_S2048x256_0_1 (broadcastInDim S1x256 ![1] bcast_S256_S1x256_1 a3) (ix2 r h)
      = a3 (ix1 h) := by
  rw [broadcastInDim_apply _ _ _ (ix2 r h) (ix2 (0 : Fin 1) h) (fun a => by
        match a with
        | ⟨0, _⟩ => rfl
        | ⟨1, _⟩ => rfl),
    broadcastInDim_apply _ _ _ (ix2 (0 : Fin 1) h) (ix1 h) (fun a => by
        match a with
        | ⟨0, _⟩ => rfl)]

/-- The rectifier as the program writes it — a choice on "at least zero" between the value and the slope times the
    value — is the specification's: at zero both branches are zero, elsewhere "at least zero" is "above zero". -/
theorem leaky_select (p : EReal) :
    Scalar.select (Ideal.cmp .oge p 0) p (Ideal.ofBits .f32 0x3C23D70A#32 * p) = Cert.Spec.leaky p := by
  unfold Cert.Spec.leaky Scalar.select Ideal.cmp
  by_cases h0 : p = 0
  · subst h0
    simp
  · by_cases hp : 0 < p
    · rw [if_pos hp, if_pos (by simp [hp.le])]
    · have hn : ¬ (0 : EReal) ≤ p := fun hle => hp (lt_of_le_of_ne hle (Ne.symm h0))
      rw [if_neg hp, if_neg (by simp [hn]), mul_comm]

/-- The rows listed node by node: row b·128+s of the reshaped array is node (b, s) of the original. -/
theorem rows_apply (X : FVec Ideal S16x128x512 .f32) (b : Fin 16) (s : Fin 128) (j : Fin 512) :
    shapeCast S2048x512 X shapeCasts_S16x128x512_S2048x512 (ix2 (⟨b.val * 128 + s.val, by omega⟩ : Fin 2048) j) = X (ix3 b s j) := by
  refine shapeCast_apply X _ _ (ix3 b s j) ?_
  rw [Shape.rowMajor_val_three, Shape.rowMajor_val_two]
  rfl

/-- Two arrays side by side along the feature axis: a column in the first half reads the first array. -/
theorem cat_left (x₁ x₂ : FVec Ideal S16x128x256 .f32) (b : Fin 16) (s : Fin 128) (k : Fin 256) :
    concatenate S16x128x512 2 [⟨S16x128x256, x₁⟩, ⟨S16x128x256, x₂⟩] concatenates_S16x128x256_S16x128x256_S16x128x512_d2
        (ix3 b s (⟨k.val, by omega⟩ : Fin 512)) = x₁ (ix3 b s k) :=
  concatenate_pair_apply_left (t := S16x128x512) 2 x₁ x₂ concatenates_S16x128x256_S16x128x256_S16x128x512_d2 _ rfl (ix3 b s k)
    (fun a => by
      match a with
      | ⟨0, _⟩ => rfl
      | ⟨1, _⟩ => rfl
      | ⟨2, _⟩ => rfl)

/-- A column in the second half reads the second array, 256 columns back. -/
theorem cat_right (x₁ x₂ : FVec Ideal S16x128x256 .f32) (b : Fin 16) (s : Fin 128) (k : Fin 256) :
    concatenate S16x128x512 2 [⟨S16x128x256, x₁⟩, ⟨S16x128x256, x₂⟩] concatenates_S16x128x256_S16x128x256_S16x128x512_d2
        (ix3 b s (⟨256 + k.val, by omega⟩ : Fin 512)) = x₂ (ix3 b s k) :=
  concatenate_pair_apply_right (t := S16x128x512) 2 x₁ x₂ concatenates_S16x128x256_S16x128x256_S16x128x512_d2 _ rfl rfl (ix3 b s k)
    (fun a => by
      match a with
      | ⟨0, _⟩ => exact fun _ => rfl
      | ⟨1, _⟩ => exact fun _ => rfl
      | ⟨2, _⟩ => exact fun h => absurd rfl h)
    (by show k.val + 256 = 256 + k.val; omega)

/-- The linear map at (row, column): the sum over the 512 features of the row's entry times the map's. -/
theorem dot_apply (A : FVec Ideal S2048x512 .f32) (a2 : FVec Ideal S512x256 .f32) (r : Fin 2048) (h : Fin 256) :
    Host.dotGeneral (F := Ideal) dot_S2048x512_S512x256_S2048x256_1_0_0_1_n_n none A a2 (ix2 r h)
      = ∑ c : Fin 512, A (ix2 r c) * a2 (ix2 c h) := by
  show FloatOps.dotGeneral dot_S2048x512_S512x256_S2048x256_1_0_0_1_n_n none .single A a2 (ix2 r h) = _
  rw [Ideal.dotGeneral_apply, ← Ideal.matmul_constant_zero_apply _ none]
  exact Cert.LibDot.matmul_10_zero_apply dot_S2048x512_S512x256_S2048x256_1_0_0_1_n_n rfl rfl rfl rfl rfl rfl none A a2 r h

/-- A sum over 512 terms is the sum over the first 256 plus the sum over the second 256. -/
theorem sum_halves (f : Fin 512 → EReal) :
    ∑ c : Fin 512, f c = (∑ k : Fin 256, f ⟨k.val, by omega⟩) + ∑ k : Fin 256, f ⟨256 + k.val, by omega⟩ := by
  rw [show (∑ c : Fin 512, f c) = ∑ c : Fin (256 + 256), f c from rfl, Fin.sum_univ_add]
  rfl

/-- The value before the rectifier at row b·128+s and column h is the specification's linear part for node (b, s). -/
theorem preAct_apply (a0 a1 : FVec Ideal S16x128x128x256 .f32) (a2 : FVec Ideal S512x256 .f32) (a3 : FVec Ideal S256 .f32)
    (b : Fin 16) (s : Fin 128) (h : Fin 256) :
    preAct (F := Ideal) a0 a1 a2 a3 (ix2 (⟨b.val * 128 + s.val, by omega⟩ : Fin 2048) h)
      = Cert.Spec.lin (fun m k => a0 (ix4 b s m k)) (fun m k => a1 (ix4 b s m k))
          (fun k c => a2 (ix2 (⟨k.val, by omega⟩ : Fin 512) c)) (fun k c => a2 (ix2 (⟨256 + k.val, by omega⟩ : Fin 512) c))
          (fun c => a3 (ix1 c)) h := by
  unfold preAct Cert.Spec.lin
  rw [addf_apply, bias_apply, dot_apply, sum_halves]
  congr 1
  congr 1
  · refine Finset.sum_congr rfl fun k _ => ?_
    rw [rows_apply, cat_left, rowSum_apply]
  · refine Finset.sum_congr rfl fun k _ => ?_
    rw [rows_apply, cat_right, neighMean_apply]

/-- The reference's result at row b·128+s and column h is the specification's value for node (b, s) at hidden unit h. -/
theorem result_node (a0 a1 : Vec Ideal S16x128x128x256 .f32) (a2 : Vec Ideal S512x256 .f32) (a3 : Vec Ideal S256 .f32)
    (b : Fin 16) (s : Fin 128) (h : Fin 256) :
    result (F := Ideal) a0 a1 a2 a3 (ix2 (⟨b.val * 128 + s.val, by omega⟩ : Fin 2048) h)
      = Cert.Spec.node (fun m k => a0 (ix4 b s m k)) (fun m k => a1 (ix4 b s m k))
          (fun k c => a2 (ix2 (⟨k.val, by omega⟩ : Fin 512) c)) (fun k c => a2 (ix2 (⟨256 + k.val, by omega⟩ : Fin 512) c))
          (fun c => a3 (ix1 c)) h := by
  unfold result Cert.Spec.node
  rw [select_apply, cmpf_apply, mulf_apply, broadcastInDim_scalar_apply, broadcastInDim_scalar_apply, id_eq, constant_apply,
    constant_apply, Ideal.ofBits_zero_f32, Ideal.cmpf_def, preAct_apply]
  exact leaky_select _

end Cert.ReferenceIdeal.NodeValue

end
-- ==== Proof.RefWhole.lean ====
/-
  The reference's result as the whole-array function: row r is node (r / 128, r % 128), and r = (r / 128)·128 + r % 128.
-/
import proofs.«105454_j38774964748866_1_alg».proof.Proof.RefNode
import proofs.«105454_j38774964748866_1_alg».proof.Proof.Whole

noncomputable section

namespace Cert.ReferenceIdeal.NodeValue

open Idealize.ShloMosaic Idealize.ShloMosaic.ValueIdx Cert.ReferenceIdeal Cert.ReferenceIdeal.RefValue

variable [Cert.ReferenceIdeal.Facts]

/-- The reference's result array is the whole-array function of its arguments. -/
theorem result_whole (a0 a1 : Vec Ideal S16x128x128x256 .f32) (a2 : Vec Ideal S512x256 .f32) (a3 : Vec Ideal S256 .f32) :
    result (F := Ideal) a0 a1 a2 a3 = Cert.Spec.whole a0 a1 a2 a3 := by
  funext i
  obtain ⟨r, h, rfl⟩ : ∃ (r : Fin 2048) (h : Fin 256), i = ix2 r h := ⟨i 0, i 1, eq_ix2 i⟩
  rw [Cert.Spec.whole_ix2]
  have hr : r = (⟨(Cert.Spec.batchOf r).val * 128 + (Cert.Spec.posOf r).val, by
      have := r.isLt; show r.val / 128 * 128 + r.val % 128 < 2048; omega⟩ : Fin 2048) :=
    Fin.ext (by show r.val = r.val / 128 * 128 + r.val % 128; omega)
  exact (congrArg (fun x : Fin 2048 => result (F := Ideal) a0 a1 a2 a3 (ix2 x h)) hr).trans
    (result_node a0 a1 a2 a3 (Cert.Spec.batchOf r) (Cert.Spec.posOf r) h)

end Cert.ReferenceIdeal.NodeValue

end
-- ==== Proof.lean ====
/-
  The certificate: a masked-mean neighbour aggregation followed by one linear layer and a leaky rectifier, computed
  block by block on a 16 × 4 grid, against the same computation written with whole-array operations.

  For every node the kernel sums the node's own 128 rows and its neighbours' 128 rows, divides the neighbours' sum by
  the number of neighbour rows that are not all zero (at least one), multiplies the two 256-vectors by the two halves of
  a 512 × 256 matrix, adds a bias and applies the leaky rectifier. The reference computes the same: it finds the present
  rows by testing entries against zero where the kernel tests a row's summed absolute values, counts them as integers
  where the kernel adds floating ones, lays the two vectors side by side and multiplies by the whole matrix where the
  kernel adds two products, and chooses on "at least zero" where the kernel chooses on "above zero". On the extended
  reals these agree: a sum of absolute values is above zero exactly when a term is not zero, the integer count is
  exact, a sum over 512 terms is the sum of its halves, and at zero both branches of the rectifier give zero.
  Both sides are read as one function of the argument arrays (`Cert.Spec.whole`): the kernel's blocks are blocks of
  it and cover the result, and the reference's composed term is it index by index.
-/
import proofs.«105454_j38774964748866_1_alg».proof.Defs
import proofs.«105454_j38774964748866_1_alg».proof.Proof.Gen.Kernel
import proofs.«105454_j38774964748866_1_alg».proof.Proof.Gen.Kernel.Skeleton
import proofs.«105454_j38774964748866_1_alg».proof.Proof.Gen.Kernel.Launch
import proofs.«105454_j38774964748866_1_alg».proof.Proof.Gen.Kernel.Points
import proofs.«105454_j38774964748866_1_alg».proof.Proof.Gen.Kernel.Frame
import proofs.«105454_j38774964748866_1_alg».proof.Proof.Gen.KernelIdeal
import proofs.«105454_j38774964748866_1_alg».proof.Proof.Gen.KernelIdeal.Skeleton
import proofs.«105454_j38774964748866_1_alg».proof.Proof.Gen.KernelIdeal.Launch
import proofs.«105454_j38774964748866_1_alg».proof.Proof.Gen.KernelIdeal.Points
import proofs.«105454_j38774964748866_1_alg».proof.Proof.Gen.KernelIdeal.Frame
import proofs.«105454_j38774964748866_1_alg».proof.Proof.Gen.KernelIdeal.Value
import proofs.«105454_j38774964748866_1_alg».proof.Proof.Gen.ReferenceIdeal
import proofs.«105454_j38774964748866_1_alg».proof.Proof.Gen.Pre_finite_inputs
import proofs.«105454_j38774964748866_1_alg».proof.Proof.KernelArray
import proofs.«105454_j38774964748866_1_alg».proof.Proof.RefRun
import proofs.«105454_j38774964748866_1_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- From memories that agree on the arguments both programs end with the whole-array function of the arguments in
    their result buffers. -/
theorem algebraic : Cert.algebraic_KernelIdeal_ReferenceIdeal := by
  intro m ρ m' ρ' _ hagree
  refine ⟨fun c => Cert.Spec.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  exact Cert.ReferenceIdeal.NodeValue.result_whole _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
